-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S128x64 .f32) (main_arg4 : FVec F S64 .f32) (main_arg5 : FVec F S128x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x64 : Shape := ⟨2, ![64, 64]⟩
abbrev S10000x64 : Shape := ⟨2, ![10000, 64]⟩
abbrev S1x64 : Shape := ⟨2, ![1, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S64x64, .f32⟩
  | .hbm, ⟨33, _⟩ => ⟨S64x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S64x64, .f32⟩
  | .hbm, ⟨61, _⟩ => ⟨S64x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S_, .f32⟩
  | .hbm, ⟨17, _⟩ => ⟨S100000x64, .f32⟩
  | .hbm, ⟨18, _⟩ => ⟨S1600000x1, .i32⟩
  | .hbm, ⟨19, _⟩ => ⟨S100000x64, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S1600000, .f32⟩
  | .hbm, ⟨55, _⟩ => ⟨S_, .f32⟩
  | .hbm, ⟨56, _⟩ => ⟨S100000, .f32⟩
  | .hbm, ⟨57, _⟩ => ⟨S1600000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S100000x128, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelBody.lean ====
/-
  What one grid step of the kernel computes, entry by entry, over the extended reals.

  A step holds 10000 rows of the node features (`x0`) and of the neighbour means (`x1`), the two weight halves
  (`x2`, `x3`) and the bias (`x4`). Changing a value's float format is the identity here, and a matrix product
  into a zero accumulator is the plain sum over the contracted index, so entry (r, q) of what the step stores is
      max ( Σₖ x0[r,k]·x2[k,q]  +  Σₖ x1[r,k]·x3[k,q]  +  x4[q] , 0 ).
  Both pallas_calls run the same body (the second with one more identity reshape), so both store this number.
-/
import proofs.«154589_j20444044329487_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The step's matrix product: rows of a 10000 × 64 block against a 64 × 64 weight half. -/
abbrev rowsDot : DotDims S10000x64 S64x64 S10000x64 := dot_S10000x64_S64x64_S10000x64_1_0_0_1_n_n

theorem rowsDot_lhs_0 (i : S10000x64.Idx) (s : dot_S10000x64_S64x64_S10000x64_1_0_0_1_n_n.contr.Idx) :
    (dot_S10000x64_S64x64_S10000x64_1_0_0_1_n_n.lhsIdx i s 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem rowsDot_lhs_1 (i : S10000x64.Idx) (s : dot_S10000x64_S64x64_S10000x64_1_0_0_1_n_n.contr.Idx) :
    (dot_S10000x64_S64x64_S10000x64_1_0_0_1_n_n.lhsIdx i s 1).val = (s ⟨0, by decide⟩).val :=
  dot_S10000x64_S64x64_S10000x64_1_0_0_1_n_n.lhsIdx_val_of_single rfl i s
theorem rowsDot_rhs_0 (i : S10000x64.Idx) (s : dot_S10000x64_S64x64_S10000x64_1_0_0_1_n_n.contr.Idx) :
    (dot_S10000x64_S64x64_S10000x64_1_0_0_1_n_n.rhsIdx i s 0).val = (s ⟨0, by decide⟩).val :=
  dot_S10000x64_S64x64_S10000x64_1_0_0_1_n_n.rhsIdx_val_of_single rfl i s
theorem rowsDot_rhs_1 (i : S10000x64.Idx) (s : dot_S10000x64_S64x64_S10000x64_1_0_0_1_n_n.contr.Idx) :
    (dot_S10000x64_S64x64_S10000x64_1_0_0_1_n_n.rhsIdx i s 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row `r` of the block against column `q` of the weight half: the sum over the 64 contracted indices. -/
theorem rows_dot_apply {φ₁ φ₂ : FTy} (a : FVec Ideal S10000x64 φ₁) (w : FVec Ideal S64x64 φ₂) (r : Fin 10000) (q : Fin 64) :
    matmul dot_S10000x64_S64x64_S10000x64_1_0_0_1_n_n none a w (constant (F := Ideal) S10000x64 .f32 0x00000000#32) (ix2 r q)
      = ∑ k : Fin 64, a (ix2 r k) * w (ix2 k q) := by
  show FloatOps.matmul dot_S10000x64_S64x64_S10000x64_1_0_0_1_n_n none a w (constant (F := Ideal) S10000x64 .f32 0x00000000#32) (ix2 r q) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r q) ((contrEquiv1 dot_S10000x64_S64x64_S10000x64_1_0_0_1_n_n 64 rfl rfl).symm k) = ix2 r k := funext fun a => Fin.ext (by
    match a with
    | ⟨0, _⟩ => exact rowsDot_lhs_0 _ _
    | ⟨1, _⟩ => exact (rowsDot_lhs_1 _ _).trans hk)
  have er : dot_S10000x64_S64x64_S10000x64_1_0_0_1_n_n.rhsIdx (ix2 r q) ((contrEquiv1 dot_S10000x64_S64x64_S10000x64_1_0_0_1_n_n 64 rfl rfl).symm k) = ix2 k q := funext fun a => Fin.ext (by
    match a with
    | ⟨0, _⟩ => exact (rowsDot_rhs_0 _ _).trans hk
    | ⟨1, _⟩ => exact rowsDot_rhs_1 _ _)
  rw [el, er]

/-- The bias, laid along every row: entry (r, q) is `b[q]`. -/
theorem bias_rows_apply (b : Vec Ideal S64 .f32) (r : Fin 10000) (q : Fin 64) :
    broadcastTo S10000x64 (shapeCast S1x64 b shapeCasts_S64_S1x64) broadcasts_S1x64_S10000x64 (ix2 r q) = b (ix1 q) := by
  rw [broadcastTo_apply _ broadcasts_S1x64_S10000x64 (ix2 r q) (ix2 (0 : Fin 1) q) (fun a => by
    match a with
    | ⟨0, _⟩ => rfl
    | ⟨1, _⟩ => rfl)]
  rw [shapeCast_addUnit_apply ![64] b shapeCasts_S64_S1x64 (ix2 (0 : Fin 1) q)]
  exact congrArg b (funext fun a => by match a with | ⟨0, _⟩ => rfl)

/-- Entry (r, q) of what a step stores. -/
theorem step_apply (x0 x1 : Vec Ideal S10000x64 .f32) (x2 x3 : Vec Ideal S64x64 .f32) (x4 : Vec Ideal S64 .f32)
    (r : Fin 10000) (q : Fin 64) :
    k0_pay1 (F := Ideal) x0 x1 x2 x3 x4 (ix2 r q)
      = max (((∑ k : Fin 64, x0 (ix2 r k) * x2 (ix2 k q)) + ∑ k : Fin 64, x1 (ix2 r k) * x3 (ix2 k q)) + x4 (ix1 q))
          (Ideal.ofBits .f32 0x00000000#32) := by
  unfold k0_pay1
  rw [maximumf_apply, addf_apply, addf_apply, rows_dot_apply, rows_dot_apply, bias_rows_apply]
  simp only [shapeCast_self, truncf_apply]
  rfl

/-- Entry (r, q) of what a step of the second pallas_call stores: the same body, so the same number. -/
theorem step1_apply (x0 x1 : Vec Ideal S10000x64 .f32) (x2 x3 : Vec Ideal S64x64 .f32) (x4 : Vec Ideal S64 .f32)
    (r : Fin 10000) (q : Fin 64) :
    k1_pay1 (F := Ideal) x0 x1 x2 x3 x4 (ix2 r q)
      = max (((∑ k : Fin 64, x0 (ix2 r k) * x2 (ix2 k q)) + ∑ k : Fin 64, x1 (ix2 r k) * x3 (ix2 k q)) + x4 (ix1 q))
          (Ideal.ofBits .f32 0x00000000#32) := by
  unfold k1_pay1
  rw [maximumf_apply, addf_apply, addf_apply, rows_dot_apply, rows_dot_apply, bias_rows_apply]
  simp only [shapeCast_self, truncf_apply]
  rfl

end Cert.KernelIdeal.Hand

end
-- ==== Proof.SageLayer.lean ====
/-
  One GraphSAGE node update, as a function of whole arrays over the extended reals.

  For node features `X`, neighbour means `Nb` (both 100000 × 64), the two 64 × 64 halves `Wx`, `Wn` of a
  128 × 64 weight and a bias `b`, entry (p, q) of the update is
      max ( Σₖ X[p,k]·Wx[k,q]  +  Σₖ Nb[p,k]·Wn[k,q]  +  b[q] , 0 ).
  Multiplying the joined row (X[p,·] ‖ Nb[p,·]) of length 128 into the whole weight gives the same number: a sum
  over 128 indices is the sum over the first 64 plus the sum over the last 64 (`sum_halves`). Addition on the
  extended reals is commutative and associative, so the regrouping needs no finiteness.
-/
import Idealize.ShloMosaic.PureOps.Ideal
import Idealize.ShloMosaic.Lib.ValueIdx
import Mathlib.Algebra.BigOperators.Fin

noncomputable section

open scoped BigOperators

namespace Cert.Sage

open Idealize.ShloMosaic Idealize.ShloMosaic.ValueIdx

/-- Node features: 100000 nodes, 64 features each. -/
abbrev SNodes : Shape := ⟨2, ![100000, 64]⟩
/-- One half of a layer's weight. -/
abbrev SHalf : Shape := ⟨2, ![64, 64]⟩
/-- A layer's bias. -/
abbrev SBias : Shape := ⟨1, ![64]⟩
/-- A node's own features joined with its neighbours' mean. -/
abbrev SJoin : Shape := ⟨2, ![100000, 128]⟩
/-- A layer's whole weight. -/
abbrev SWeight : Shape := ⟨2, ![128, 64]⟩

/-- Entry (p, q) of the update: the node's own row against `Wx`, its neighbour mean's row against `Wn`, the
    bias, clamped below at zero. -/
def layerAt (X Nb : SNodes.Idx → EReal) (Wx Wn : SHalf.Idx → EReal) (b : SBias.Idx → EReal)
    (p : Fin 100000) (q : Fin 64) : EReal :=
  max (((∑ k : Fin 64, X (ix2 p k) * Wx (ix2 k q)) + ∑ k : Fin 64, Nb (ix2 p k) * Wn (ix2 k q)) + b (ix1 q))
    (Ideal.ofBits .f32 0x00000000#32)

/-- The update as a whole array. -/
def layer (X Nb : SNodes.Idx → EReal) (Wx Wn : SHalf.Idx → EReal) (b : SBias.Idx → EReal) : SNodes.Idx → EReal :=
  fun i => layerAt X Nb Wx Wn b (i 0) (i 1)

theorem layer_apply (X Nb : SNodes.Idx → EReal) (Wx Wn : SHalf.Idx → EReal) (b : SBias.Idx → EReal)
    (p : Fin 100000) (q : Fin 64) : layer X Nb Wx Wn b (ix2 p q) = layerAt X Nb Wx Wn b p q := rfl

/-- A sum over 128 indices is the sum over the first 64 plus the sum over the last 64. -/
theorem sum_halves (f : Fin 128 → EReal) :
    ∑ k : Fin 128, f k
      = (∑ k : Fin 64, f ⟨k.val, Nat.lt_of_lt_of_le k.isLt (by decide)⟩)
        + ∑ k : Fin 64, f ⟨64 + k.val, Nat.add_lt_add_left k.isLt 64⟩ :=
  Fin.sum_univ_add (a := 64) (b := 64) f

end Cert.Sage

end
-- ==== Proof.Region0.lean ====
/-
  What the first pallas_call leaves in its result array, as one function of the arrays it is entered with.

  The grid has 10 steps; step `t` holds rows 10000·t … 10000·t + 9999 of the node features and of the neighbour
  means, and all of the two weight halves and of the bias. So entry (r, q) of what step `t` writes back is entry
  (10000·t + r, q) of the layer update of the whole arrays, and the ten row blocks cover all 100000 rows: the
  result array ends holding the layer update.
-/
import proofs.«154589_j20444044329487_1_alg».proof.Proof.Gen.KernelIdeal.Frame
import proofs.«154589_j20444044329487_1_alg».proof.Proof.KernelBody
import proofs.«154589_j20444044329487_1_alg».proof.Proof.SageLayer
import Idealize.ShloMosaic.Lib.Pipeline.Value

set_option maxRecDepth 16384

noncomputable section

open scoped BigOperators

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_0 : (![0, 0] : Fin 2 → Nat) = fun _ => 0 := funext fun a => by fin_cases a <;> rfl
theorem zero1_0 : (![0] : Fin 1 → Nat) = fun _ => 0 := funext fun a => by fin_cases a <;> rfl

/-- The block each window holds at step `t`: the row windows (features, neighbour means, result) are at block
    row `t`, the weight halves and the bias at their one block. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `r` of step `t`'s feature block is row 10000·t + r of the feature array. -/
theorem feat0_apply (c : Dev nD) (t : Fin cfg0.N) (r : Fin 10000) (k : Fin 64) (p : Fin 100000) (hp : p.val = t.val * 10000 + r.val) :
    (iblk0 V c 0 t : Vec Ideal S10000x64 .f32) (ix2 r k) = (V c main_arg0 : S100000x64.Idx → EReal) (ix2 p k) := by
  obtain ⟨e0, e1, -⟩ := blockIdx0 t
  unfold iblk0
  rw [View.read_apply]
  show (V c main_arg0 : S100000x64.Idx → EReal) _ = _
  congr 1
  funext a
  apply Fin.ext
  match a with
  | ⟨0, _⟩ => show win0_0.index t (0 : Fin 2) * 10000 + 1 * r.val = p.val; rw [e0, hp]; omega
  | ⟨1, _⟩ => show win0_0.index t (1 : Fin 2) * 64 + 1 * k.val = k.val; rw [e1]; omega

/-- Row `r` of step `t`'s neighbour-mean block is row 10000·t + r of the neighbour-mean array. -/
theorem mean0_apply (c : Dev nD) (t : Fin cfg0.N) (r : Fin 10000) (k : Fin 64) (p : Fin 100000) (hp : p.val = t.val * 10000 + r.val) :
    (iblk0 V c 1 t : Vec Ideal S10000x64 .f32) (ix2 r k) = (V c main_v18 : S100000x64.Idx → EReal) (ix2 p k) := by
  obtain ⟨-, -, e0, e1, -⟩ := blockIdx0 t
  unfold iblk0
  rw [View.read_apply]
  show (V c main_v18 : S100000x64.Idx → EReal) _ = _
  congr 1
  funext a
  apply Fin.ext
  match a with
  | ⟨0, _⟩ => show win0_1.index t (0 : Fin 2) * 10000 + 1 * r.val = p.val; rw [e0, hp]; omega
  | ⟨1, _⟩ => show win0_1.index t (1 : Fin 2) * 64 + 1 * k.val = k.val; rw [e1]; omega

/-- Every step holds the whole first weight half. -/
theorem wx0_apply (c : Dev nD) (t : Fin cfg0.N) (k q : Fin 64) :
    (iblk0 V c 2 t : Vec Ideal S64x64 .f32) (ix2 k q) = (V c main_v19 : S64x64.Idx → EReal) (ix2 k q) := by
  obtain ⟨-, -, -, -, e0, e1, -⟩ := blockIdx0 t
  unfold iblk0
  rw [View.read_apply]
  show (V c main_v19 : S64x64.Idx → EReal) _ = _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- Every step holds the whole second weight half. -/
theorem wn0_apply (c : Dev nD) (t : Fin cfg0.N) (k q : Fin 64) :
    (iblk0 V c 3 t : Vec Ideal S64x64 .f32) (ix2 k q) = (V c main_v20 : S64x64.Idx → EReal) (ix2 k q) := by
  obtain ⟨-, -, -, -, -, -, e0, e1, -⟩ := blockIdx0 t
  unfold iblk0
  rw [View.read_apply]
  show (V c main_v20 : S64x64.Idx → EReal) _ = _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega

/-- Every step holds the whole bias. -/
theorem bias0_apply (c : Dev nD) (t : Fin cfg0.N) (q : Fin 64) :
    (iblk0 V c 4 t : Vec Ideal S64 .f32) (ix1 q) = (V c main_arg4 : S64.Idx → EReal) (ix1 q) := by
  obtain ⟨-, -, -, -, -, -, -, -, e0, -⟩ := blockIdx0 t
  unfold iblk0
  rw [View.read_apply]
  show (V c main_arg4 : S64.Idx → EReal) _ = _
  congr 1
  funext a
  apply Fin.ext
  match a with
  | ⟨0, _⟩ => show win0_4.index t (0 : Fin 1) * 64 + 1 * q.val = q.val; rw [e0]; omega

/-- The layer update of the arrays the call is entered with. -/
abbrev entered0 (c : Dev nD) : S100000x64.Idx → EReal :=
  layer (V c main_arg0 : S100000x64.Idx → EReal) (V c main_v18 : S100000x64.Idx → EReal)
    (V c main_v19 : S64x64.Idx → EReal) (V c main_v20 : S64x64.Idx → EReal) (V c main_arg4 : S64.Idx → EReal)

/-- What step `t` writes back is block row `t` of the layer update of the entered arrays. -/
theorem written0 (c : Dev nD) (t : Fin cfg0.N) :
    (dat0 V c).flushed 5 t = ((cfg0.win 5).blk t).view.read (Elt Ideal) (entered0 V c) := by
  obtain ⟨-, -, -, -, -, -, -, -, -, e0, e1⟩ := blockIdx0 t
  have hN : cfg0.N = 10 := N_0
  show (cfg0.win 5).cut (grid0.coords t) ((dat0 V c).after 5 t) = _
  rw [after0_5]
  unfold out0_5
  rw [View.canon_unit_zero zero2_0]
  simp only [View.ld_unit_zero (S := S10000x64) zero2_0, View.ld_unit_zero (S := S64x64) zero2_0, View.ld_unit_zero (S := S64) zero1_0]
  funext j
  obtain ⟨r, q, rfl⟩ : ∃ (r : Fin 10000) (q : Fin 64), j = ix2 r q := ⟨j 0, j 1, eq_ix2 j⟩
  have hrow : t.val * 10000 + r.val < 100000 := by have := t.isLt; omega
  have hemb : ((cfg0.win 5).blk t).view.emb (ix2 r q) = ix2 (⟨t.val * 10000 + r.val, hrow⟩ : Fin 100000) q := by
    funext a
    apply Fin.ext
    match a with
    | ⟨0, _⟩ => show win0_5.index t (0 : Fin 2) * 10000 + 1 * r.val = t.val * 10000 + r.val; rw [e0]; omega
    | ⟨1, _⟩ => show win0_5.index t (1 : Fin 2) * 64 + 1 * q.val = q.val; rw [e1]; omega
  show k0_pay1 (F := Ideal) (iblk0 V c 0 t) (iblk0 V c 1 t) (iblk0 V c 2 t) (iblk0 V c 3 t) (iblk0 V c 4 t) (ix2 r q)
    = entered0 V c (((cfg0.win 5).blk t).view.emb (ix2 r q))
  rw [hemb]
  refine (step_apply (iblk0 V c 0 t) (iblk0 V c 1 t) (iblk0 V c 2 t) (iblk0 V c 3 t) (iblk0 V c 4 t) r q).trans ?_
  show _ = layerAt (V c main_arg0 : S100000x64.Idx → EReal) (V c main_v18 : S100000x64.Idx → EReal)
    (V c main_v19 : S64x64.Idx → EReal) (V c main_v20 : S64x64.Idx → EReal) (V c main_arg4 : S64.Idx → EReal)
    (⟨t.val * 10000 + r.val, hrow⟩ : Fin 100000) q
  unfold layerAt
  simp only [feat0_apply V c t r _ (⟨t.val * 10000 + r.val, hrow⟩ : Fin 100000) rfl, mean0_apply V c t r _ (⟨t.val * 10000 + r.val, hrow⟩ : Fin 100000) rfl,
    wx0_apply V c t, wn0_apply V c t, bias0_apply V c t]

/-- The result array after the call: the layer update of the entered arrays (the ten row blocks cover it). -/
theorem result0 (c : Dev nD) : (dat0 V c).arrAt 5 cfg0.N = entered0 V c :=
  (dat0 V c).arrAt_eq_of_cover 5 (entered0 V c) (fun t _ => written0 V c t) fun i => by
    have hN : cfg0.N = 10 := N_0
    have hi0 : (i 0).val < 100000 := (i 0).isLt
    have hi1 : (i 1).val < 64 := (i 1).isLt
    obtain ⟨t, ht⟩ : ∃ t : Fin cfg0.N, t.val = (i 0).val / 10000 := ⟨⟨(i 0).val / 10000, by omega⟩, rfl⟩
    obtain ⟨-, -, -, -, -, -, -, -, -, e0, e1⟩ := blockIdx0 t
    refine ⟨t, flush0_5 t, ?_⟩
    show i ∈ ((View.whole main_v21).slice (win0_5.rect t)).set
    rw [View.set_slice_whole, Rect.mem_set_unit]
    intro a
    match a with
    | ⟨0, _⟩ =>
      show win0_5.index t (0 : Fin 2) * 10000 ≤ (i 0).val ∧ (i 0).val < win0_5.index t (0 : Fin 2) * 10000 + 10000
      rw [e0, ht]; omega
    | ⟨1, _⟩ =>
      show win0_5.index t (1 : Fin 2) * 64 ≤ (i 1).val ∧ (i 1).val < win0_5.index t (1 : Fin 2) * 64 + 64
      rw [e1]; omega

end Cert.KernelIdeal.Hand

end
-- ==== Proof.Region1.lean ====
/-
  What the second pallas_call leaves in its result array, as one function of the arrays it is entered with.

  The grid has 10 steps; step `t` holds rows 10000·t … 10000·t + 9999 of the node features and of the neighbour
  means, and all of the two weight halves and of the bias. So entry (r, q) of what step `t` writes back is entry
  (10000·t + r, q) of the layer update of the whole arrays, and the ten row blocks cover all 100000 rows: the
  result array ends holding the layer update.
-/
import proofs.«154589_j20444044329487_1_alg».proof.Proof.Gen.KernelIdeal.Frame
import proofs.«154589_j20444044329487_1_alg».proof.Proof.KernelBody
import proofs.«154589_j20444044329487_1_alg».proof.Proof.SageLayer
import Idealize.ShloMosaic.Lib.Pipeline.Value

set_option maxRecDepth 16384

noncomputable section

open scoped BigOperators

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2_1 : (![0, 0] : Fin 2 → Nat) = fun _ => 0 := funext fun a => by fin_cases a <;> rfl
theorem zero1_1 : (![0] : Fin 1 → Nat) = fun _ => 0 := funext fun a => by fin_cases a <;> rfl

/-- The block each window holds at step `t`: the row windows (features, neighbour means, result) are at block
    row `t`, the weight halves and the bias at their one block. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `r` of step `t`'s feature block is row 10000·t + r of the feature array. -/
theorem feat1_apply (c : Dev nD) (t : Fin cfg1.N) (r : Fin 10000) (k : Fin 64) (p : Fin 100000) (hp : p.val = t.val * 10000 + r.val) :
    (iblk1 V c 0 t : Vec Ideal S10000x64 .f32) (ix2 r k) = (V c main_v21 : S100000x64.Idx → EReal) (ix2 p k) := by
  obtain ⟨e0, e1, -⟩ := blockIdx1 t
  unfold iblk1
  rw [View.read_apply]
  show (V c main_v21 : S100000x64.Idx → EReal) _ = _
  congr 1
  funext a
  apply Fin.ext
  match a with
  | ⟨0, _⟩ => show win1_0.index t (0 : Fin 2) * 10000 + 1 * r.val = p.val; rw [e0, hp]; omega
  | ⟨1, _⟩ => show win1_0.index t (1 : Fin 2) * 64 + 1 * k.val = k.val; rw [e1]; omega

/-- Row `r` of step `t`'s neighbour-mean block is row 10000·t + r of the neighbour-mean array. -/
theorem mean1_apply (c : Dev nD) (t : Fin cfg1.N) (r : Fin 10000) (k : Fin 64) (p : Fin 100000) (hp : p.val = t.val * 10000 + r.val) :
    (iblk1 V c 1 t : Vec Ideal S10000x64 .f32) (ix2 r k) = (V c main_v40 : S100000x64.Idx → EReal) (ix2 p k) := by
  obtain ⟨-, -, e0, e1, -⟩ := blockIdx1 t
  unfold iblk1
  rw [View.read_apply]
  show (V c main_v40 : S100000x64.Idx → EReal) _ = _
  congr 1
  funext a
  apply Fin.ext
  match a with
  | ⟨0, _⟩ => show win1_1.index t (0 : Fin 2) * 10000 + 1 * r.val = p.val; rw [e0, hp]; omega
  | ⟨1, _⟩ => show win1_1.index t (1 : Fin 2) * 64 + 1 * k.val = k.val; rw [e1]; omega

/-- Every step holds the whole first weight half. -/
theorem wx1_apply (c : Dev nD) (t : Fin cfg1.N) (k q : Fin 64) :
    (iblk1 V c 2 t : Vec Ideal S64x64 .f32) (ix2 k q) = (V c main_v41 : S64x64.Idx → EReal) (ix2 k q) := by
  obtain ⟨-, -, -, -, e0, e1, -⟩ := blockIdx1 t
  unfold iblk1
  rw [View.read_apply]
  show (V c main_v41 : S64x64.Idx → EReal) _ = _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Every step holds the whole second weight half. -/
theorem wn1_apply (c : Dev nD) (t : Fin cfg1.N) (k q : Fin 64) :
    (iblk1 V c 3 t : Vec Ideal S64x64 .f32) (ix2 k q) = (V c main_v42 : S64x64.Idx → EReal) (ix2 k q) := by
  obtain ⟨-, -, -, -, -, -, e0, e1, -⟩ := blockIdx1 t
  unfold iblk1
  rw [View.read_apply]
  show (V c main_v42 : S64x64.Idx → EReal) _ = _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- Every step holds the whole bias. -/
theorem bias1_apply (c : Dev nD) (t : Fin cfg1.N) (q : Fin 64) :
    (iblk1 V c 4 t : Vec Ideal S64 .f32) (ix1 q) = (V c main_arg6 : S64.Idx → EReal) (ix1 q) := by
  obtain ⟨-, -, -, -, -, -, -, -, e0, -⟩ := blockIdx1 t
  unfold iblk1
  rw [View.read_apply]
  show (V c main_arg6 : S64.Idx → EReal) _ = _
  congr 1
  funext a
  apply Fin.ext
  match a with
  | ⟨0, _⟩ => show win1_4.index t (0 : Fin 1) * 64 + 1 * q.val = q.val; rw [e0]; omega

/-- The layer update of the arrays the call is entered with. -/
abbrev entered1 (c : Dev nD) : S100000x64.Idx → EReal :=
  layer (V c main_v21 : S100000x64.Idx → EReal) (V c main_v40 : S100000x64.Idx → EReal)
    (V c main_v41 : S64x64.Idx → EReal) (V c main_v42 : S64x64.Idx → EReal) (V c main_arg6 : S64.Idx → EReal)

/-- What step `t` writes back is block row `t` of the layer update of the entered arrays. -/
theorem written1 (c : Dev nD) (t : Fin cfg1.N) :
    (dat1 V c).flushed 5 t = ((cfg1.win 5).blk t).view.read (Elt Ideal) (entered1 V c) := by
  obtain ⟨-, -, -, -, -, -, -, -, -, e0, e1⟩ := blockIdx1 t
  have hN : cfg1.N = 10 := N_1
  show (cfg1.win 5).cut (grid1.coords t) ((dat1 V c).after 5 t) = _
  rw [after1_5]
  unfold out1_5
  rw [View.canon_unit_zero zero2_1]
  simp only [View.ld_unit_zero (S := S10000x64) zero2_1, View.ld_unit_zero (S := S64x64) zero2_1, View.ld_unit_zero (S := S64) zero1_1]
  funext j
  obtain ⟨r, q, rfl⟩ : ∃ (r : Fin 10000) (q : Fin 64), j = ix2 r q := ⟨j 0, j 1, eq_ix2 j⟩
  have hrow : t.val * 10000 + r.val < 100000 := by have := t.isLt; omega
  have hemb : ((cfg1.win 5).blk t).view.emb (ix2 r q) = ix2 (⟨t.val * 10000 + r.val, hrow⟩ : Fin 100000) q := by
    funext a
    apply Fin.ext
    match a with
    | ⟨0, _⟩ => show win1_5.index t (0 : Fin 2) * 10000 + 1 * r.val = t.val * 10000 + r.val; rw [e0]; omega
    | ⟨1, _⟩ => show win1_5.index t (1 : Fin 2) * 64 + 1 * q.val = q.val; rw [e1]; omega
  show k1_pay1 (F := Ideal) (iblk1 V c 0 t) (iblk1 V c 1 t) (iblk1 V c 2 t) (iblk1 V c 3 t) (iblk1 V c 4 t) (ix2 r q)
    = entered1 V c (((cfg1.win 5).blk t).view.emb (ix2 r q))
  rw [hemb]
  refine (step1_apply (iblk1 V c 0 t) (iblk1 V c 1 t) (iblk1 V c 2 t) (iblk1 V c 3 t) (iblk1 V c 4 t) r q).trans ?_
  show _ = layerAt (V c main_v21 : S100000x64.Idx → EReal) (V c main_v40 : S100000x64.Idx → EReal)
    (V c main_v41 : S64x64.Idx → EReal) (V c main_v42 : S64x64.Idx → EReal) (V c main_arg6 : S64.Idx → EReal)
    (⟨t.val * 10000 + r.val, hrow⟩ : Fin 100000) q
  unfold layerAt
  simp only [feat1_apply V c t r _ (⟨t.val * 10000 + r.val, hrow⟩ : Fin 100000) rfl, mean1_apply V c t r _ (⟨t.val * 10000 + r.val, hrow⟩ : Fin 100000) rfl,
    wx1_apply V c t, wn1_apply V c t, bias1_apply V c t]

/-- The result array after the call: the layer update of the entered arrays (the ten row blocks cover it). -/
theorem result1 (c : Dev nD) : (dat1 V c).arrAt 5 cfg1.N = entered1 V c :=
  (dat1 V c).arrAt_eq_of_cover 5 (entered1 V c) (fun t _ => written1 V c t) fun i => by
    have hN : cfg1.N = 10 := N_1
    have hi0 : (i 0).val < 100000 := (i 0).isLt
    have hi1 : (i 1).val < 64 := (i 1).isLt
    obtain ⟨t, ht⟩ : ∃ t : Fin cfg1.N, t.val = (i 0).val / 10000 := ⟨⟨(i 0).val / 10000, by omega⟩, rfl⟩
    obtain ⟨-, -, -, -, -, -, -, -, -, e0, e1⟩ := blockIdx1 t
    refine ⟨t, flush1_5 t, ?_⟩
    show i ∈ ((View.whole main_v43).slice (win1_5.rect t)).set
    rw [View.set_slice_whole, Rect.mem_set_unit]
    intro a
    match a with
    | ⟨0, _⟩ =>
      show win1_5.index t (0 : Fin 2) * 10000 ≤ (i 0).val ∧ (i 0).val < win1_5.index t (0 : Fin 2) * 10000 + 10000
      rw [e0, ht]; omega
    | ⟨1, _⟩ =>
      show win1_5.index t (1 : Fin 2) * 64 ≤ (i 1).val ∧ (i 1).val < win1_5.index t (1 : Fin 2) * 64 + 64
      rw [e1]; omega

end Cert.KernelIdeal.Hand

end
-- ==== Proof.Network.lean ====
/-
  The two-layer GraphSAGE network as one function of its seven argument arrays, over the extended reals.

  `neighbourMean x src dst` is the mean of `x`'s rows over each node's incoming edges: gather `x[src]` (a negative
  index counted from the end), add the gathered rows into their destination rows, and divide each row by the number
  of edges that arrived there, taken as at least one. Both programs compute it on the host with the same operations,
  so it is carried here as one function and never opened.
  A layer joins each node's row with its neighbour mean and applies a 128 × 64 weight, a bias and a clamp at zero;
  split into the weight's upper and lower 64 rows (`upper`, `lower`) it is `Cert.Sage.layer`. The network is two
  layers, the second fed by the first's result (`hiddenLayer`, `output`).
-/
import proofs.«154589_j20444044329487_1_alg».proof.Proof.Gen.KernelIdeal
import proofs.«154589_j20444044329487_1_alg».proof.Proof.SageLayer
import Idealize.ShloMosaic.PureOps.Ideal

noncomputable section

namespace Cert.Sage

open Cert.KernelIdeal Cert.KernelIdeal.Facts₀ Idealize.ShloMosaic

/-- The mean of `x`'s rows over each node's incoming edges (zero where no edge arrives: the divisor is at least one). -/
def neighbourMean (x : (⟨S100000x64, .f32⟩ : BufTy).Contents (Elt Ideal)) (src dst : (⟨S1600000, .i32⟩ : BufTy).Contents (Elt Ideal)) :
    (⟨S100000x64, .f32⟩ : BufTy).Contents (Elt Ideal) :=
  Host.divf (F := Ideal)
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 x
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x64 ![0, 1] bcast_S100000x1_S100000x64_0_1
      (broadcastInDim S100000x1 ![0] bcast_S100000_S100000x1_0
        (maximumf
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- A weight's rows 0 … 63: what multiplies a node's own features. -/
def upper (W : (⟨S128x64, .f32⟩ : BufTy).Contents (Elt Ideal)) : (⟨S64x64, .f32⟩ : BufTy).Contents (Elt Ideal) :=
  extractStridedSlice S64x64 ![0, 0] W slices_S128x64_S64x64_0_0

/-- A weight's rows 64 … 127: what multiplies a node's neighbour mean. -/
def lower (W : (⟨S128x64, .f32⟩ : BufTy).Contents (Elt Ideal)) : (⟨S64x64, .f32⟩ : BufTy).Contents (Elt Ideal) :=
  extractStridedSlice S64x64 ![64, 0] W slices_S128x64_S64x64_64_0

/-- The first layer's result. -/
def hiddenLayer (x : (⟨S100000x64, .f32⟩ : BufTy).Contents (Elt Ideal)) (src dst : (⟨S1600000, .i32⟩ : BufTy).Contents (Elt Ideal))
    (W1 : (⟨S128x64, .f32⟩ : BufTy).Contents (Elt Ideal)) (b1 : (⟨S64, .f32⟩ : BufTy).Contents (Elt Ideal)) :
    (⟨S100000x64, .f32⟩ : BufTy).Contents (Elt Ideal) :=
  layer x (neighbourMean x src dst) (upper W1) (lower W1) b1

/-- The network's result: the second layer over the first's. -/
def output (x : (⟨S100000x64, .f32⟩ : BufTy).Contents (Elt Ideal)) (src dst : (⟨S1600000, .i32⟩ : BufTy).Contents (Elt Ideal))
    (W1 : (⟨S128x64, .f32⟩ : BufTy).Contents (Elt Ideal)) (b1 : (⟨S64, .f32⟩ : BufTy).Contents (Elt Ideal))
    (W2 : (⟨S128x64, .f32⟩ : BufTy).Contents (Elt Ideal)) (b2 : (⟨S64, .f32⟩ : BufTy).Contents (Elt Ideal)) :
    (⟨S100000x64, .f32⟩ : BufTy).Contents (Elt Ideal) :=
  layer (hiddenLayer x src dst W1 b1) (neighbourMean (hiddenLayer x src dst W1 b1) src dst) (upper W2) (lower W2) b2

end Cert.Sage

end
-- ==== Proof.KernelValue.lean ====
/-
  The kernel program's result as the network's output.

  The program is: the host computes the neighbour mean of the features and cuts the first weight in two; the first
  pallas_call leaves the first layer's result; the host computes the neighbour mean of that result and cuts the second
  weight; the second pallas_call leaves the second layer's result. Each array a call is entered with is read back
  through the host operations before it to the launch contents, each call's result array is the layer update of the
  arrays it is entered with, and no operation writes an argument: so the result ends at `Cert.Sage.output` of the
  seven arguments.
-/
import proofs.«154589_j20444044329487_1_alg».proof.Proof.Gen.KernelIdeal.Frame
import proofs.«154589_j20444044329487_1_alg».proof.Proof.KernelRun
import proofs.«154589_j20444044329487_1_alg».proof.Proof.Region0
import proofs.«154589_j20444044329487_1_alg».proof.Proof.Region1
import proofs.«154589_j20444044329487_1_alg».proof.Proof.Network
import Idealize.ShloMosaic.Lib.StableHlo.Run

set_option maxRecDepth 16384

noncomputable section

namespace Cert.KernelIdeal.Hand

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first call is entered with -/

theorem entry0_feat (c : Dev nD) : V1 m ρ c main_arg0 = (m ((c : Thread nD τ).loc main_arg0)) := by
  show StableHlo.after hostOps0 (W0 m ρ c) (Proc.devRef .tc main_arg0) = _
  after_results_simp <;> rfl

set_option maxHeartbeats 8000000 in
theorem entry0_mean (c : Dev nD) : V1 m ρ c main_v18 = neighbourMean (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

theorem entry0_upper (c : Dev nD) : V1 m ρ c main_v19 = upper (m ((c : Thread nD τ).loc main_arg3)) := by
  show StableHlo.after hostOps0 (W0 m ρ c) (Proc.devRef .tc main_v19) = _
  after_results_simp
  rfl

theorem entry0_lower (c : Dev nD) : V1 m ρ c main_v20 = lower (m ((c : Thread nD τ).loc main_arg3)) := by
  show StableHlo.after hostOps0 (W0 m ρ c) (Proc.devRef .tc main_v20) = _
  after_results_simp
  rfl

theorem entry0_bias (c : Dev nD) : V1 m ρ c main_arg4 = (m ((c : Thread nD τ).loc main_arg4)) := by
  show StableHlo.after hostOps0 (W0 m ρ c) (Proc.devRef .tc main_arg4) = _
  after_results_simp <;> rfl

/-! ## Between the calls -/

/-- The first call leaves the first layer's result. -/
theorem between_hidden (c : Dev nD) :
    W2 m ρ c (Proc.devRef .tc main_v21) = hiddenLayer (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [result0 (V1 m ρ) c]
  show layer (V1 m ρ c main_arg0) (V1 m ρ c main_v18) (V1 m ρ c main_v19) (V1 m ρ c main_v20) (V1 m ρ c main_arg4) = _
  unfold hiddenLayer
  rw [entry0_feat, entry0_mean, entry0_upper, entry0_lower, entry0_bias]

theorem between_src (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)

theorem between_dst (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results_simp <;> rfl)

theorem between_weight (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem between_bias (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

/-! ## What the second call is entered with -/

theorem entry1_feat (c : Dev nD) : V3 m ρ c main_v21 = W2 m ρ c (Proc.devRef .tc main_v21) := by
  show StableHlo.after hostOps1 (W2 m ρ c) (Proc.devRef .tc main_v21) = _
  after_results_simp <;> rfl

set_option maxHeartbeats 8000000 in
theorem entry1_mean (c : Dev nD) : V3 m ρ c main_v40
    = neighbourMean (W2 m ρ c (Proc.devRef .tc main_v21)) (W2 m ρ c (Proc.devRef .tc main_arg1)) (W2 m ρ c (Proc.devRef .tc main_arg2)) := by
  show StableHlo.after hostOps1 (W2 m ρ c) (Proc.devRef .tc main_v40) = _
  after_results_simp
  rfl

theorem entry1_upper (c : Dev nD) : V3 m ρ c main_v41 = upper (W2 m ρ c (Proc.devRef .tc main_arg5)) := by
  show StableHlo.after hostOps1 (W2 m ρ c) (Proc.devRef .tc main_v41) = _
  after_results_simp
  rfl

theorem entry1_lower (c : Dev nD) : V3 m ρ c main_v42 = lower (W2 m ρ c (Proc.devRef .tc main_arg5)) := by
  show StableHlo.after hostOps1 (W2 m ρ c) (Proc.devRef .tc main_v42) = _
  after_results_simp
  rfl

theorem entry1_bias (c : Dev nD) : V3 m ρ c main_arg6 = W2 m ρ c (Proc.devRef .tc main_arg6) := by
  show StableHlo.after hostOps1 (W2 m ρ c) (Proc.devRef .tc main_arg6) = _
  after_results_simp <;> rfl

/-! ## The result -/

/-- The result array after the program: the network's output of the seven arguments. -/
theorem result_eq (c : Dev nD) : W4 m ρ c (Proc.devRef .tc main_v43) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 5).trans ?_
  rw [result1 (V3 m ρ) c]
  show layer (V3 m ρ c main_v21) (V3 m ρ c main_v40) (V3 m ρ c main_v41) (V3 m ρ c main_v42) (V3 m ρ c main_arg6) = _
  unfold output
  rw [entry1_feat, entry1_mean, entry1_upper, entry1_lower, entry1_bias,
    between_hidden, between_src, between_dst, between_weight, between_bias]

/-- The run, read: the result at the network's output of the arguments, the arguments unchanged. -/
theorem run : θ_run defs (onTc (τ := τ) (main (F := Ideal))) ⟨m, fun _ => 0, ρ⟩ fun r => ∀ c : Dev nD,
      r.2.mem ((c.tc : Thread nD τ).loc main_v43) = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (result_eq m ρ c), (h c).2⟩) (run_main m ρ)

end Cert.KernelIdeal.Hand

end
-- ==== Proof.RefValue.lean ====
/-
  The reference program's result as the network's output.

  The reference computes a layer as the clamp at zero of (X ‖ Nb)·W + b, with X ‖ Nb the 100000 × 128 array whose
  row p is X's row p followed by Nb's row p. Entry (p, q) of the product is a sum over 128 indices k of
  (X ‖ Nb)[p,k]·W[k,q]; its first 64 terms are X[p,k]·W[k,q] and its last 64 are Nb[p,k]·W[64+k,q], which is
  the layer update with W's upper and lower halves (`joined_eq`). The neighbour mean is the same host operations as
  the kernel program's, so the reference's stages are the network's functions of the arguments.
-/
import proofs.«154589_j20444044329487_1_alg».proof.Proof.Gen.ReferenceIdeal.Read
import proofs.«154589_j20444044329487_1_alg».proof.Proof.Network
import proofs.«154589_j20444044329487_1_alg».proof.Proof.SageLayer
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Cert.Sage
open Idealize.ShloMosaic Idealize.ShloMosaic.ValueIdx

/-- A layer as the reference computes it: join, multiply by the whole weight, add the bias, clamp at zero. -/
def joined (X Nb : FVec Ideal S100000x64 .f32) (W : FVec Ideal S128x64 .f32) (b : FVec Ideal S64 .f32) : FVec Ideal S100000x64 .f32 :=
  maximumf
    (addf
      (Host.dotGeneral dot_S100000x128_S128x64_S100000x64_1_0_0_1_n_n none
        (concatenate S100000x128 1 [⟨S100000x64, X⟩, ⟨S100000x64, Nb⟩] concatenates_S100000x64_S100000x64_S100000x128_d1) W)
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- Row `p` of the joined array against column `q` of the weight: the sum over the 128 contracted indices. -/
theorem join_dot_apply (C : FVec Ideal S100000x128 .f32) (W : FVec Ideal S128x64 .f32) (p : Fin 100000) (q : Fin 64) :
    Host.dotGeneral dot_S100000x128_S128x64_S100000x64_1_0_0_1_n_n none C W (ix2 p q) = ∑ k : Fin 128, C (ix2 p k) * W (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs_main_v20_0 _ _
    | ⟨1, _⟩ => exact (lhs_main_v20_1 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs_main_v20_0 _ _).trans hk
    | ⟨1, _⟩ => exact rhs_main_v20_1 _ _)
  rw [el, er]

/-- The first 64 columns of a joined row are the node's own features … -/
theorem join_left (X Nb : FVec Ideal S100000x64 .f32) (p : Fin 100000) (k : Fin 64) (hk : k.val < 128) :
    concatenate S100000x128 1 [⟨S100000x64, X⟩, ⟨S100000x64, Nb⟩] concatenates_S100000x64_S100000x64_S100000x128_d1
      (ix2 p (⟨k.val, hk⟩ : Fin 128)) = X (ix2 p k) :=
  concatenate_pair_apply_left 1 X Nb concatenates_S100000x64_S100000x64_S100000x128_d1 (ix2 p (⟨k.val, hk⟩ : Fin 128)) rfl (ix2 p k)
    (fun b => by match b with | ⟨0, _⟩ => rfl | ⟨1, _⟩ => rfl)

/-- … and the last 64 its neighbour mean. -/
theorem join_right (X Nb : FVec Ideal S100000x64 .f32) (p : Fin 100000) (k : Fin 64) (hk : 64 + k.val < 128) :
    concatenate S100000x128 1 [⟨S100000x64, X⟩, ⟨S100000x64, Nb⟩] concatenates_S100000x64_S100000x64_S100000x128_d1
      (ix2 p (⟨64 + k.val, hk⟩ : Fin 128)) = Nb (ix2 p k) :=
  concatenate_pair_apply_right 1 X Nb concatenates_S100000x64_S100000x64_S100000x128_d1 (ix2 p (⟨64 + k.val, hk⟩ : Fin 128)) rfl rfl (ix2 p k)
    (fun b hb => by match b with | ⟨0, _⟩ => rfl | ⟨1, _⟩ => exact absurd rfl hb)
    (by show k.val + 64 = 64 + k.val; omega)

/-- Row `k` of a weight's upper half is the weight's row `k` … -/
theorem upper_apply (W : FVec Ideal S128x64 .f32) (k q : Fin 64) :
    upper W (ix2 k q) = W (ix2 (⟨k.val, Nat.lt_of_lt_of_le k.isLt (by decide)⟩ : Fin 128) q) := by
  unfold upper
  exact extractStridedSlice_apply _ W _ (ix2 k q) (ix2 (⟨k.val, Nat.lt_of_lt_of_le k.isLt (by decide)⟩ : Fin 128) q) (fun a => by
    match a with
    | ⟨0, _⟩ => show k.val = 0 + k.val; omega
    | ⟨1, _⟩ => show q.val = 0 + q.val; omega)

/-- … and row `k` of its lower half the weight's row 64 + k. -/
theorem lower_apply (W : FVec Ideal S128x64 .f32) (k q : Fin 64) :
    lower W (ix2 k q) = W (ix2 (⟨64 + k.val, Nat.add_lt_add_left k.isLt 64⟩ : Fin 128) q) := by
  unfold lower
  exact extractStridedSlice_apply _ W _ (ix2 k q) (ix2 (⟨64 + k.val, Nat.add_lt_add_left k.isLt 64⟩ : Fin 128) q) (fun a => by
    match a with
    | ⟨0, _⟩ => show 64 + k.val = 64 + k.val; rfl
    | ⟨1, _⟩ => show q.val = 0 + q.val; omega)

/-- The bias laid along every row: entry (p, q) is `b[q]`. -/
theorem bias_apply (b : FVec Ideal S64 .f32) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ bcast_S1x64_S100000x64_0_1 _ (ix2 p q) (ix2 (0 : Fin 1) q) (fun a => by
    match a with
    | ⟨0, _⟩ => show 0 = if (1 : Nat) = 1 then 0 else p.val; rw [if_pos rfl]
    | ⟨1, _⟩ => show q.val = if (64 : Nat) = 1 then 0 else q.val; rw [if_neg (by decide)])]
  exact broadcastInDim_apply _ bcast_S64_S1x64_1 b (ix2 (0 : Fin 1) q) (ix1 q) (fun a => by
    match a with
    | ⟨0, _⟩ => show q.val = if (64 : Nat) = 1 then 0 else q.val; rw [if_neg (by decide)])

/-- The clamp's zero, laid over the whole array. -/
theorem zero_apply (p : Fin 100000) (q : Fin 64) :
    broadcastInDim S100000x64 ![] bcast_S_S100000x64 (constant (F := Ideal) S_ .f32 0x00000000#32) (ix2 p q)
      = Ideal.ofBits .f32 0x00000000#32 :=
  broadcastInDim_apply _ bcast_S_S100000x64 (constant (F := Ideal) S_ .f32 0x00000000#32) (ix2 p q) ix0 (fun a => a.elim0)

/-- The reference's layer is the layer update with the weight's two halves: the contraction over 128 indices splits
    into its first and last 64. -/
theorem joined_eq (X Nb : FVec Ideal S100000x64 .f32) (W : FVec Ideal S128x64 .f32) (b : FVec Ideal S64 .f32) :
    joined X Nb W b = layer X Nb (upper W) (lower W) b := by
  funext i
  obtain ⟨p, q, rfl⟩ : ∃ (p : Fin 100000) (q : Fin 64), i = ix2 p q := ⟨i 0, i 1, eq_ix2 i⟩
  rw [layer_apply]
  unfold joined layerAt
  rw [maximumf_apply, addf_apply, join_dot_apply, bias_apply, zero_apply, sum_halves]
  simp only [join_left, join_right, upper_apply, lower_apply]

/-! ## The reference's stages -/

/-- The reference's neighbour mean is the network's: the same host operations. -/
theorem mean_eq (x0 : (⟨S100000x64, .f32⟩ : BufTy).Contents (Elt Ideal)) (x1 x2 : (⟨S1600000, .i32⟩ : BufTy).Contents (Elt Ideal)) :
    val_main_v18 (F := Ideal) x0 x1 x2 = neighbourMean x0 x1 x2 := rfl

/-- The first layer's result. -/
theorem hidden_eq (x0 : (⟨S100000x64, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) :
    val_main_v24 (F := Ideal) x0 x1 x2 x3 x4 = hiddenLayer x0 x1 x2 x3 x4 := by
  show joined x0 (val_main_v18 (F := Ideal) x0 x1 x2) x3 x4 = _
  rw [joined_eq, mean_eq]
  rfl

/-- The second neighbour mean is taken of the first layer's result. -/
theorem mean2_eq (x0 : (⟨S100000x64, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) :
    val_main_v43 (F := Ideal) x0 x1 x2 x3 x4 = neighbourMean (val_main_v24 (F := Ideal) x0 x1 x2 x3 x4) x1 x2 := rfl

/-- The reference's result is the network's output of the seven arguments. -/
theorem output_eq (x0 : (⟨S100000x64, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal))
    (x5 : (⟨S128x64, .f32⟩ : BufTy).Contents (Elt Ideal)) (x6 : (⟨S64, .f32⟩ : BufTy).Contents (Elt Ideal)) :
    val_main_v49 (F := Ideal) x0 x1 x2 x3 x4 x5 x6 = output x0 x1 x2 x3 x4 x5 x6 := by
  show joined (val_main_v24 (F := Ideal) x0 x1 x2 x3 x4) (val_main_v43 (F := Ideal) x0 x1 x2 x3 x4) x5 x6 = _
  rw [joined_eq, mean2_eq, hidden_eq]
  rfl

end Cert.ReferenceIdeal.Hand

end
-- ==== Proof.lean ====
/-
  A two-layer GraphSAGE network over 100000 nodes and 1600000 edges: the kernel program against its jnp reference,
  equal over the extended reals.

  Both programs compute each node's neighbour mean on the host with the same operations. A layer then maps a node's
  own row x and its neighbour mean n (64 numbers each) through a 128 × 64 weight W, a bias b and a clamp at zero. The
  reference joins the rows and multiplies once, (x ‖ n)·W + b; the kernel cuts W into its upper and lower 64 rows on
  the host and, in a pallas_call over ten blocks of 10000 rows, adds the two products, x·W[:64] + n·W[64:] + b.
  The two agree because a sum over 128 contracted indices is the sum over its first 64 plus the sum over its last
  64, and the extended reals' addition is commutative and associative: no finiteness of the inputs is used. The
  kernel's rounding of its operands to bf16 is the identity over the extended reals, and a matrix product into a zero
  accumulator is the plain sum.

  Modules: `SageLayer` states one layer entry by entry and the split of the sum; `Network` the neighbour mean and
  the two-layer network as one function `Cert.Sage.output` of the seven arguments; `KernelBody` what one grid step
  stores; `Region0` / `Region1` what each pallas_call leaves in its result array; `KernelRun` the program's run with
  the result array named; `KernelValue` the kernel program's result as `output` of the arguments; `RefValue` the
  reference's result as the same function. The three frames are the generated ones (the reference's is its run with
  the result dropped); the idealization rewrote nothing, so `preserves` is `True`.
-/
import proofs.«154589_j20444044329487_1_alg».proof.Defs
import proofs.«154589_j20444044329487_1_alg».proof.Proof.Gen.Kernel
import proofs.«154589_j20444044329487_1_alg».proof.Proof.Gen.Kernel.Skeleton
import proofs.«154589_j20444044329487_1_alg».proof.Proof.Gen.Kernel.Launch
import proofs.«154589_j20444044329487_1_alg».proof.Proof.Gen.Kernel.Points
import proofs.«154589_j20444044329487_1_alg».proof.Proof.Gen.Kernel.Frame
import proofs.«154589_j20444044329487_1_alg».proof.Proof.Gen.KernelIdeal
import proofs.«154589_j20444044329487_1_alg».proof.Proof.Gen.KernelIdeal.Skeleton
import proofs.«154589_j20444044329487_1_alg».proof.Proof.Gen.KernelIdeal.Launch
import proofs.«154589_j20444044329487_1_alg».proof.Proof.Gen.KernelIdeal.Points
import proofs.«154589_j20444044329487_1_alg».proof.Proof.Gen.KernelIdeal.Frame
import proofs.«154589_j20444044329487_1_alg».proof.Proof.Gen.ReferenceIdeal
import proofs.«154589_j20444044329487_1_alg».proof.Proof.Gen.ReferenceIdeal.Run
import proofs.«154589_j20444044329487_1_alg».proof.Proof.Gen.ReferenceIdeal.Read
import proofs.«154589_j20444044329487_1_alg».proof.Proof.Gen.Pre_finite_inputs
import proofs.«154589_j20444044329487_1_alg».proof.Proof.KernelValue
import proofs.«154589_j20444044329487_1_alg».proof.Proof.RefValue
import Idealize.ShloMosaic.Adequacy
import Idealize.ShloMosaic.Init

noncomputable section

namespace Cert.Proof

open Idealize.ShloMosaic Idealize.SL.Sem

/-- The kernel program as printed runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the seven arguments, end with the result array at the network's
    output of those arguments. -/
theorem algebraic : Cert.algebraic_KernelIdeal_ReferenceIdeal := by
  intro m ρ m' ρ' _ hagree
  refine ⟨fun c => Cert.Sage.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Hand.output_eq]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
